-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S28672x1024 : Shape := ⟨2, ![28672, 1024]⟩
abbrev S28672x128 : Shape := ⟨2, ![28672, 128]⟩
abbrev S28672x16 : Shape := ⟨2, ![28672, 16]⟩
abbrev S28672 : Shape := ⟨1, ![28672]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S28672x128 : S_.BroadcastsInDim S28672x128 (![] : Fin 0 → Fin S28672x128.rank)
  reducesTo_S28672x128_S_d0_1 : S28672x128.ReducesTo [0, 1] S_
  bcast_S_S28672 : S_.BroadcastsInDim S28672 (![] : Fin 0 → Fin S28672.rank)
  reducesTo_S28672_S_d0 : S28672.ReducesTo [0] S_

variable [Facts]

def fn {F : FTy → Type} [FloatOps F] (main_arg0 : FVec F S32x8192 .f32) (main_arg1 : IVec S28672x1024 32) (main_arg2 : FVec F S28672x128 .f32) (main_arg3 : IVec S28672x16 32) (main_arg4 : FVec F S28672 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S28672x128 .f32 := Host.absf main_arg2
  let main_cst_0 : FVec F S_ .f32 := constant S_ .f32 0x7F800000#32
  let main_v5 : FVec F S28672x128 .f32 := broadcastInDim S28672x128 ![] bcast_S_S28672x128 main_cst_0
  let main_v6 : IVec S28672x128 1 := cmpf .olt main_v4 main_v5
  let main_c_1 : IVec S_ 1 := constantI S_ 1 1#1
  let main_v7 : IVec S_ 1 := (fun x v => Host.reduce IntOp.andi x v reducesTo_S28672x128_S_d0_1 h_S_) main_v6 main_c_1
  let main_v8 : IVec S_ 1 := andi main_v3 main_v7
  let main_v9 : FVec F S28672 .f32 := Host.absf main_arg4
  let main_cst_2 : FVec F S_ .f32 := constant S_ .f32 0x7F800000#32
  let main_v10 : FVec F S28672 .f32 := broadcastInDim S28672 ![] bcast_S_S28672 main_cst_2
  let main_v11 : IVec S28672 1 := cmpf .olt main_v9 main_v10
  let main_c_3 : IVec S_ 1 := constantI S_ 1 1#1
  let main_v12 : IVec S_ 1 := (fun x v => Host.reduce IntOp.andi x v reducesTo_S28672_S_d0 h_S_) main_v11 main_c_3
  let main_v13 : IVec S_ 1 := andi main_v8 main_v12
  main_v13
-- ==== Kernel.lean ====
abbrev S32x8192 : Shape := ⟨2, ![32, 8192]⟩
abbrev S28672x1024 : Shape := ⟨2, ![28672, 1024]⟩
abbrev S28672x128 : Shape := ⟨2, ![28672, 128]⟩
abbrev S28672x16 : Shape := ⟨2, ![28672, 16]⟩
abbrev S28672 : Shape := ⟨1, ![28672]⟩
abbrev S32x28672 : Shape := ⟨2, ![32, 28672]⟩
abbrev S128x1024 : Shape := ⟨2, ![128, 1024]⟩
abbrev S128x128 : Shape := ⟨2, ![128, 128]⟩
abbrev S128x16 : Shape := ⟨2, ![128, 16]⟩
abbrev S128 : Shape := ⟨1, ![128]⟩
abbrev S32x128 : Shape := ⟨2, ![32, 128]⟩
abbrev S128x1024x8 : Shape := ⟨3, ![128, 1024, 8]⟩
abbrev S128x1024x1 : Shape := ⟨3, ![128, 1024, 1]⟩
abbrev S128x8192 : Shape := ⟨2, ![128, 8192]⟩
abbrev S128x16x8 : Shape := ⟨3, ![128, 16, 8]⟩
abbrev S128x16x1 : Shape := ⟨3, ![128, 16, 1]⟩
abbrev S128x128x1 : Shape := ⟨3, ![128, 128, 1]⟩
abbrev S128x128x64 : Shape := ⟨3, ![128, 128, 64]⟩
abbrev S1x128 : Shape := ⟨2, ![1, 128]⟩

abbrev nBuf : Space → Nat
  | .hbm => 6
  | .vmem => 11
  | .smem => 0
  | _ => 0

abbrev bufTy : (tb : Table) → Fin (tcTables nBuf tb) → BufTy
  | .hbm, ⟨0, _⟩ => ⟨S32x8192, .f32⟩
  | .hbm, ⟨1, _⟩ => ⟨S28672x1024, .i32⟩
  | .hbm, ⟨2, _⟩ => ⟨S28672x128, .f32⟩
  | .hbm, ⟨3, _⟩ => ⟨S28672x16, .i32⟩
  | .hbm, ⟨4, _⟩ => ⟨S28672, .f32⟩
  | .hbm, ⟨5, _⟩ => ⟨S32x28672, .f32⟩
  | .local _ .vmem, ⟨0, _⟩ => ⟨S32x8192, .f32⟩
  | .local _ .vmem, ⟨1, _⟩ => ⟨S128x1024, .i32⟩
  | .local _ .vmem, ⟨2, _⟩ => ⟨S128x1024, .i32⟩
  | .local _ .vmem, ⟨3, _⟩ => ⟨S128x128, .f32⟩
  | .local _ .vmem, ⟨4, _⟩ => ⟨S128x128, .f32⟩
  | .local _ .vmem, ⟨5, _⟩ => ⟨S128x16, .i32⟩
  | .local _ .vmem, ⟨6, _⟩ => ⟨S128x16, .i32⟩
  | .local _ .vmem, ⟨7, _⟩ => ⟨S128, .f32⟩
  | .local _ .vmem, ⟨8, _⟩ => ⟨S128, .f32⟩
  | .local _ .vmem, ⟨9, _⟩ => ⟨S32x128, .f32⟩
  | .local _ .vmem, ⟨10, _⟩ => ⟨S32x128, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![224], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S128x1024_S128x1024_0_0 : ∀ a, (![0, 0] : Fin 2 → Nat) a + S128x1024.size a ≤ S128x1024.size a
  h_S128x1024 : 0 < S128x1024.numel
  iota_S128x1024x8_d2_w32 : S128x1024x8.Iotas .tc 32 [2]
  shapeCasts_S128x1024_S128x1024x1 : S128x1024.ShapeCasts S128x1024x1
  broadcasts_S128x1024x1_S128x1024x8 : S128x1024x1.Broadcasts S128x1024x8
  shapeCasts_S128x1024x8_S128x8192 : S128x1024x8.ShapeCasts S128x8192
  inb_S128x16_S128x16_0_0 : ∀ a, (![0, 0] : Fin 2 → Nat) a + S128x16.size a ≤ S128x16.size a
  h_S128x16 : 0 < S128x16.numel
  iota_S128x16x8_d2_w32 : S128x16x8.Iotas .tc 32 [2]
  shapeCasts_S128x16_S128x16x1 : S128x16.ShapeCasts S128x16x1
  broadcasts_S128x16x1_S128x16x8 : S128x16x1.Broadcasts S128x16x8
  shapeCasts_S128x16x8_S128x128 : S128x16x8.ShapeCasts S128x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S128x128_S128x128x1 : S128x128.ShapeCasts S128x128x1
  shapeCasts_S128x128x1_S128x128x1 : S128x128x1.ShapeCasts S128x128x1
  broadcasts_S128x128x1_S128x128x64 : S128x128x1.Broadcasts S128x128x64
  shapeCasts_S128x128x64_S128x8192 : S128x128x64.ShapeCasts S128x8192
  inb_S32x8192_S32x8192_0_0 : ∀ a, (![0, 0] : Fin 2 → Nat) a + S32x8192.size a ≤ S32x8192.size a
  h_S32x8192 : 0 < S32x8192.numel
  inb_S128_S128_0 : ∀ a, (![0] : Fin 1 → Nat) a + S128.size a ≤ S128.size a
  h_S128 : 0 < S128.numel
  shapeCasts_S128_S1x128 : S128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  dot_S32x8192_S128x8192_S32x128_1_1_0_0_n_n_wf : DotDims.WF S32x8192 S128x8192 S32x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .f32 = 32 ∨ (Rect.block (s := S32x8192) S32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S28672x1024.size a
  hwx0_1 : ∀ i : grid0.Coords, EltTy.bits .i32 = 32 ∨ (Rect.block (s := S28672x1024) S128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S28672x128.size a
  hwx0_2 : ∀ i : grid0.Coords, EltTy.bits .f32 = 32 ∨ (Rect.block (s := S28672x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S28672x16.size a
  hwx0_3 : ∀ i : grid0.Coords, EltTy.bits .i32 = 32 ∨ (Rect.block (s := S28672x16) S128x16.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S28672.size a
  hwx0_4 : ∀ i : grid0.Coords, EltTy.bits .f32 = 32 ∨ (Rect.block (s := S28672) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x28672.size a
  hwx0_5 : ∀ i : grid0.Coords, EltTy.bits .f32 = 32 ∨ (Rect.block (s := S32x28672) S32x128.size (cc0_transform_5 i) (hinb0_5 i)).WholeWords (EltTy.packing .f32)

variable [Facts₀]

def dot_S32x8192_S128x8192_S32x128_1_1_0_0_n_n : DotDims S32x8192 S128x8192 S32x128 where
  lhsContracting := [1]
  rhsContracting := [1]
  lhsNonContracting := [0]
  rhsNonContracting := [0]
  lhsBatch := []
  rhsBatch := []
  wf := dot_S32x8192_S128x8192_S32x128_1_1_0_0_n_n_wf

abbrev win0_0 : Pipeline.Window sig grid0 :=
  Pipeline.Window.ofSpec (Memref.whole main_arg0) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x8192 : Shape := ⟨2, ![32, 8192]⟩
abbrev S28672x1024 : Shape := ⟨2, ![28672, 1024]⟩
abbrev S28672x128 : Shape := ⟨2, ![28672, 128]⟩
abbrev S28672x16 : Shape := ⟨2, ![28672, 16]⟩
abbrev S28672 : Shape := ⟨1, ![28672]⟩
abbrev S8 : Shape := ⟨1, ![8]⟩
abbrev S_ : Shape := ⟨0, ![]⟩
abbrev S28672x1024x1 : Shape := ⟨3, ![28672, 1024, 1]⟩
abbrev S1x1x8 : Shape := ⟨3, ![1, 1, 8]⟩
abbrev S28672x1024x8 : Shape := ⟨3, ![28672, 1024, 8]⟩
abbrev S28672x8192 : Shape := ⟨2, ![28672, 8192]⟩
abbrev S28672x16x1 : Shape := ⟨3, ![28672, 16, 1]⟩
abbrev S28672x16x8 : Shape := ⟨3, ![28672, 16, 8]⟩
abbrev S28672x128x64 : Shape := ⟨3, ![28672, 128, 64]⟩
abbrev S28672x128x1 : Shape := ⟨3, ![28672, 128, 1]⟩
abbrev S32x28672 : Shape := ⟨2, ![32, 28672]⟩
abbrev S1x28672 : Shape := ⟨2, ![1, 28672]⟩

abbrev nBuf : Space → Nat
  | .hbm => 48
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S28672x1024, .i32⟩
  | .hbm, ⟨2, _⟩ => ⟨S28672x128, .f32⟩
  | .hbm, ⟨3, _⟩ => ⟨S28672x16, .i32⟩
  | .hbm, ⟨4, _⟩ => ⟨S28672, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S28672x1024x1, .i32⟩
  | .hbm, ⟨10, _⟩ => ⟨S1x1x8, .i32⟩
  | .hbm, ⟨11, _⟩ => ⟨S28672x1024x8, .i32⟩
  | .hbm, ⟨12, _⟩ => ⟨S28672x1024x8, .i32⟩
  | .hbm, ⟨13, _⟩ => ⟨S28672x1024x8, .i32⟩
  | .hbm, ⟨14, _⟩ => ⟨S_, .i32⟩
  | .hbm, ⟨15, _⟩ => ⟨S28672x1024x8, .i32⟩
  | .hbm, ⟨16, _⟩ => ⟨S28672x1024x8, .i32⟩
  | .hbm, ⟨17, _⟩ => ⟨S28672x8192, .i32⟩
  | .hbm, ⟨18, _⟩ => ⟨S28672x8192, .f32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S28672x16x1, .i32⟩
  | .hbm, ⟨24, _⟩ => ⟨S1x1x8, .i32⟩
  | .hbm, ⟨25, _⟩ => ⟨S28672x16x8, .i32⟩
  | .hbm, ⟨26, _⟩ => ⟨S28672x16x8, .i32⟩
  | .hbm, ⟨27, _⟩ => ⟨S28672x16x8, .i32⟩
  | .hbm, ⟨28, _⟩ => ⟨S_, .i32⟩
  | .hbm, ⟨29, _⟩ => ⟨S28672x16x8, .i32⟩
  | .hbm, ⟨30, _⟩ => ⟨S28672x16x8, .i32⟩
  | .hbm, ⟨31, _⟩ => ⟨S28672x128, .i32⟩
  | .hbm, ⟨32, _⟩ => ⟨S28672x128, .f32⟩
  | .hbm, ⟨33, _⟩ => ⟨S_, .f32⟩
  | .hbm, ⟨34, _⟩ => ⟨S28672x128, .f32⟩
  | .hbm, ⟨35, _⟩ => ⟨S28672x128, .f32⟩
  | .hbm, ⟨36, _⟩ => ⟨S28672x128x64, .f32⟩
  | .hbm, ⟨37, _⟩ => ⟨S28672x128x1, .f32⟩
  | .hbm, ⟨38, _⟩ => ⟨S28672x128x64, .f32⟩
  | .hbm, ⟨39, _⟩ => ⟨S28672x128x64, .f32⟩
  | .hbm, ⟨40, _⟩ => ⟨S28672x128x1, .f32⟩
  | .hbm, ⟨41, _⟩ => ⟨S28672x128x64, .f32⟩
  | .hbm, ⟨42, _⟩ => ⟨S28672x128x64, .f32⟩
  | .hbm, ⟨43, _⟩ => ⟨S28672x8192, .f32⟩
  | .hbm, ⟨44, _⟩ => ⟨S32x28672, .f32⟩
  | .hbm, ⟨45, _⟩ => ⟨S1x28672, .f32⟩
  | .hbm, ⟨46, _⟩ => ⟨S32x28672, .f32⟩
  | .hbm, ⟨47, _⟩ => ⟨S32x28672, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S28672x1024_S28672x1024x1_0_1 : S28672x1024.BroadcastsInDim S28672x1024x1 (![0, 1] : Fin 2 → Fin S28672x1024x1.rank)
  bcast_S8_S1x1x8_2 : S8.BroadcastsInDim S1x1x8 (![2] : Fin 1 → Fin S1x1x8.rank)
  bcast_S28672x1024x1_S28672x1024x8_0_1_2 : S28672x1024x1.BroadcastsInDim S28672x1024x8 (![0, 1, 2] : Fin 3 → Fin S28672x1024x8.rank)
  bcast_S1x1x8_S28672x1024x8_0_1_2 : S1x1x8.BroadcastsInDim S28672x1024x8 (![0, 1, 2] : Fin 3 → Fin S28672x1024x8.rank)
  bcast_S_S28672x1024x8 : S_.BroadcastsInDim S28672x1024x8 (![] : Fin 0 → Fin S28672x1024x8.rank)
  shapeCasts_S28672x1024x8_S28672x8192 : S28672x1024x8.ShapeCasts S28672x8192
  bcast_S28672x16_S28672x16x1_0_1 : S28672x16.BroadcastsInDim S28672x16x1 (![0, 1] : Fin 2 → Fin S28672x16x1.rank)
  bcast_S28672x16x1_S28672x16x8_0_1_2 : S28672x16x1.BroadcastsInDim S28672x16x8 (![0, 1, 2] : Fin 3 → Fin S28672x16x8.rank)
  bcast_S1x1x8_S28672x16x8_0_1_2 : S1x1x8.BroadcastsInDim S28672x16x8 (![0, 1, 2] : Fin 3 → Fin S28672x16x8.rank)
  bcast_S_S28672x16x8 : S_.BroadcastsInDim S28672x16x8 (![] : Fin 0 → Fin S28672x16x8.rank)
  shapeCasts_S28672x16x8_S28672x128 : S28672x16x8.ShapeCasts S28672x128
  bcast_S_S28672x128 : S_.BroadcastsInDim S28672x128 (![] : Fin 0 → Fin S28672x128.rank)
  shapeCasts_S28672x8192_S28672x128x64 : S28672x8192.ShapeCasts S28672x128x64
  bcast_S28672x128_S28672x128x1_0_1 : S28672x128.BroadcastsInDim S28672x128x1 (![0, 1] : Fin 2 → Fin S28672x128x1.rank)
  bcast_S28672x128x1_S28672x128x64_0_1_2 : S28672x128x1.BroadcastsInDim S28672x128x64 (![0, 1, 2] : Fin 3 → Fin S28672x128x64.rank)
  shapeCasts_S28672x128x64_S28672x8192 : S28672x128x64.ShapeCasts S28672x8192
  bcast_S28672_S1x28672_1 : S28672.BroadcastsInDim S1x28672 (![1] : Fin 1 → Fin S1x28672.rank)
  bcast_S1x28672_S32x28672_0_1 : S1x28672.BroadcastsInDim S32x28672 (![0, 1] : Fin 2 → Fin S32x28672.rank)
  dot_S32x8192_S28672x8192_S32x28672_1_1_0_0_n_n_wf : DotDims.WF S32x8192 S28672x8192 S32x28672 [1] [1] [0] [0] [] []

variable [Facts₀]

def dot_S32x8192_S28672x8192_S32x28672_1_1_0_0_n_n : DotDims S32x8192 S28672x8192 S32x28672 where
  lhsContracting := [1]
  rhsContracting := [1]
  lhsNonContracting := [0]
  rhsNonContracting := [0]
  lhsBatch := []
  rhsBatch := []
  wf := dot_S32x8192_S28672x8192_S32x28672_1_1_0_0_n_n_wf

class Facts : Prop extends Facts₀ where

variable [Facts]
-- ==== Proof.Spec.lean ====
/-
  The function both programs compute, and the one law that joins their two arrangements of it.

  A row of the weight matrix is stored packed: 1024 words of eight four-bit fields each (the fields of a word are its
  consecutive columns, lowest field first), one scale per block of 64 columns, and one four-bit zero-point field per
  block, eight to a word.  The weight at column `k` of a row is

      (q − (z + c)) · s        q = field `k % 8` of word `k / 8`,  s = the scale of block `k / 64`,
                               z = field `(k / 64) % 8` of zero-point word `k / 512`,  c the constant offset,

  the fields read as integers and then as reals.  The output entry for an activation row `x` and a weight row is
  `Σ_k x k · weight k + bias`.  One program forms `(q − (z + c)) · s`; the other forms `q · s − (z + c) · s`.  On the
  extended reals these agree as soon as `s` and `c` are real numbers (a product distributes over a difference of
  reals), whatever `x` and the bias are.  The two programs also shift on different arithmetic units; the units agree on
  every shift amount below the word width, and the amounts here are 0, 4, …, 28.
-/
import Idealize.ShloMosaic.PureOps.Ideal
import Idealize.ShloMosaic.Lib.ValueIdx

noncomputable section

open scoped BigOperators

namespace Cert.Dequant

open Idealize.ShloMosaic Idealize.ShloMosaic.ValueIdx

/-! ## A four-bit field of a word -/

/-- Field `j` of the word `w`: shift right, sign-extending, by `4 · j` and keep the low four bits. `u` is the unit that shifts. -/
def nib (u : ArithUnit) (w : BitVec 32) (j : Nat) : BitVec 32 :=
  IntOp.andi (IntOp.shrsi u w (IntOp.muli (BitVec.ofNat 32 j) 4#32)) 15#32

/-- The shift amount of field `j < 8` is below the word width. -/
theorem shift_lt {j : Nat} (hj : j < 8) : (IntOp.muli (BitVec.ofNat 32 j) 4#32).toNat < 32 := by
  interval_cases j <;> decide

/-- So the field does not depend on the unit that shifts. -/
theorem nib_unit (u u' : ArithUnit) (w : BitVec 32) {j : Nat} (hj : j < 8) : nib u w j = nib u' w j := by
  unfold nib IntOp.shrsi
  rw [if_pos (shift_lt hj), if_pos (shift_lt hj)]

/-! ## One weight, in the two arrangements -/

/-- A word read as a signed integer, as an extended real. -/
def toR (b : BitVec 32) : EReal := ((b.toInt : ℝ) : EReal)

/-- The weight as `(q − (z + c)) · s`. -/
def deq (c : EReal) (q z : BitVec 32) (s : EReal) : EReal := (toR q - (toR z + c)) * s

/-- The weight as `q · s − (z + c) · s`. -/
def deqK (c : EReal) (q z : BitVec 32) (s : EReal) : EReal := toR q * s - (toR z + c) * s

/-- For a real scale and a real offset the two arrangements are one number. -/
theorem deqK_eq_deq {c s : EReal} (hc : ∃ r : ℝ, c = (r : EReal)) (hs : ∃ r : ℝ, s = (r : EReal)) (q z : BitVec 32) :
    deqK c q z s = deq c q z s := by
  obtain ⟨cr, rfl⟩ := hc
  obtain ⟨sr, rfl⟩ := hs
  unfold deqK deq toR
  rw [← EReal.coe_add, ← EReal.coe_mul, ← EReal.coe_mul, ← EReal.coe_sub, ← EReal.coe_sub, ← EReal.coe_mul, sub_mul]

/-! ## One output entry -/

/-- The output entry of an activation row `xr` against a weight row given by its packed words `qr`, its scales `sr` and
    its packed zero points `zr`, plus the bias `b`; the weights as `(q − (z + c)) · s`, the fields cut on unit `u`. -/
def rowOut (u : ArithUnit) (c : EReal) (xr : Fin 8192 → EReal) (qr : Fin 1024 → BitVec 32) (sr : Fin 128 → EReal)
    (zr : Fin 16 → BitVec 32) (b : EReal) : EReal :=
  (∑ k : Fin 8192, xr k * deq c (nib u (qr ⟨k.val / 8, by omega⟩) (k.val % 8))
      (nib u (zr ⟨k.val / 512, by omega⟩) (k.val / 64 % 8)) (sr ⟨k.val / 64, by omega⟩)) + b

/-- The same entry with the weights as `q · s − (z + c) · s`. -/
def rowOutK (u : ArithUnit) (c : EReal) (xr : Fin 8192 → EReal) (qr : Fin 1024 → BitVec 32) (sr : Fin 128 → EReal)
    (zr : Fin 16 → BitVec 32) (b : EReal) : EReal :=
  (∑ k : Fin 8192, xr k * deqK c (nib u (qr ⟨k.val / 8, by omega⟩) (k.val % 8))
      (nib u (zr ⟨k.val / 512, by omega⟩) (k.val / 64 % 8)) (sr ⟨k.val / 64, by omega⟩)) + b

/-- With real scales and a real offset the two entries are equal, on any two units. -/
theorem rowOutK_eq_rowOut (u u' : ArithUnit) {c : EReal} (hc : ∃ r : ℝ, c = (r : EReal)) (xr : Fin 8192 → EReal)
    (qr : Fin 1024 → BitVec 32) {sr : Fin 128 → EReal} (hs : ∀ g, ∃ r : ℝ, sr g = (r : EReal)) (zr : Fin 16 → BitVec 32)
    (b : EReal) : rowOutK u c xr qr sr zr b = rowOut u' c xr qr sr zr b := by
  unfold rowOutK rowOut
  refine congrArg (· + b) (Finset.sum_congr rfl fun k _ => ?_)
  rw [deqK_eq_deq hc (hs _), nib_unit u u' _ (Nat.mod_lt _ (by decide)), nib_unit u u' (zr _) (Nat.mod_lt _ (by decide))]

/-! ## The whole result, and one block of it -/

/-- The offset both programs add to a zero point: the pattern of the float `8.0`. -/
def off8 : EReal := Ideal.ofBits .f32 0x41000000#32

/-- It denotes the real number 8. -/
theorem off8_real : ∃ r : ℝ, off8 = (r : EReal) :=
  ⟨8, by unfold off8; simp [Ideal.ofBits, Ideal.ieee, -EReal.coe_mul]; norm_num⟩

/-- THE RESULT as one function of the five argument arrays: entry `(m, n)` is activation row `m` against weight row `n`. -/
def G (x : (⟨2, ![32, 8192]⟩ : Shape).Idx → EReal) (qw : (⟨2, ![28672, 1024]⟩ : Shape).Idx → BitVec 32)
    (sc : (⟨2, ![28672, 128]⟩ : Shape).Idx → EReal) (qz : (⟨2, ![28672, 16]⟩ : Shape).Idx → BitVec 32)
    (bias : (⟨1, ![28672]⟩ : Shape).Idx → EReal) : (⟨2, ![32, 28672]⟩ : Shape).Idx → EReal :=
  fun i => rowOut .host off8 (fun k => x (ix2 (i 0) k)) (fun p => qw (ix2 (i 1) p)) (fun g => sc (ix2 (i 1) g))
    (fun h => qz (ix2 (i 1) h)) (bias (ix1 (i 1)))

/-- ONE BLOCK of 128 weight rows against all 32 activation rows, in the second arrangement and on the vector unit. -/
def Gblk (x : (⟨2, ![32, 8192]⟩ : Shape).Idx → EReal) (qw : (⟨2, ![128, 1024]⟩ : Shape).Idx → BitVec 32)
    (sc : (⟨2, ![128, 128]⟩ : Shape).Idx → EReal) (qz : (⟨2, ![128, 16]⟩ : Shape).Idx → BitVec 32)
    (bias : (⟨1, ![128]⟩ : Shape).Idx → EReal) : (⟨2, ![32, 128]⟩ : Shape).Idx → EReal :=
  fun y => rowOutK .vector off8 (fun k => x (ix2 (y 0) k)) (fun p => qw (ix2 (y 1) p)) (fun g => sc (ix2 (y 1) g))
    (fun h => qz (ix2 (y 1) h)) (bias (ix1 (y 1)))

end Cert.Dequant

end
-- ==== Proof.Finite.lean ====
/-
  From the precondition to the one fact the proof uses of it: every scale is a real number.

  The precondition says that each float input has absolute value below +∞ at every index — three conjuncts, one per float
  argument, each an all-reduction by `and` of the elementwise comparison `|a| < +∞`.  On the extended reals `|a|` is
  `max a (−a)`, which is `+∞` exactly at the two infinities, so an entry that passes the comparison is a real number.
  Only the second conjunct (the scales) is opened: the weights' two arrangements differ by a distributive law in the
  scale alone.
-/
import proofs.«411366_j27608049778857_3_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

/-- The rank-0 shape has one index. -/
instance : Subsingleton S_.Idx := ⟨fun _ _ => funext fun d => d.elim0⟩

/-- The pattern the comparison's right-hand side spells denotes `+∞`. -/
theorem inf_pattern : Ideal.ofBits .f32 0x7F800000#32 = ⊤ := by simp [Ideal.ofBits, Ideal.ieee]

/-- An extended real whose absolute value is below `+∞` is a real number. -/
theorem real_of_abs_lt_top {x : EReal} (h : max x (-x) < ⊤) : ∃ r : ℝ, x = (r : EReal) := by
  induction x using EReal.rec with
  | bot => simp at h
  | top => simp at h
  | coe r => exact ⟨r, rfl⟩

variable [Facts]

/-- Under the precondition every entry of the scale array is a real number. -/
theorem scales_real (a0 : FVec Ideal S32x8192 .f32) (a1 : IVec S28672x1024 32) (a2 : FVec Ideal S28672x128 .f32)
    (a3 : IVec S28672x16 32) (a4 : FVec Ideal S28672 .f32) (h : fn (F := Ideal) a0 a1 a2 a3 a4 = fun _ => 1#1)
    (j : S28672x128.Idx) : ∃ r : ℝ, a2 j = (r : EReal) := by
  have h0 := congrFun h ix0
  dsimp only [fn] at h0
  obtain ⟨h1, -⟩ := IntOp.andi_eq_one.1 h0
  obtain ⟨-, h2⟩ := IntOp.andi_eq_one.1 h1
  have h3 := Host.reduce_andi_all _ _ _ _ _ h2 j
  have h4 : BitVec.ofBool (decide (max (a2 j) (-(a2 j)) < Ideal.ofBits .f32 0x7F800000#32)) = 1#1 := h3
  rw [inf_pattern] at h4
  refine real_of_abs_lt_top ?_
  by_contra hn
  rw [decide_eq_false hn] at h4
  exact absurd h4 (by decide)

end Cert.Finite

end
-- ==== Proof.RefIsG.lean ====
/-
  The reference program, read entry by entry, is the specification.

  A row of the packed weights is unpacked by the reference into 1024 × 8 fields, flattened to 8192 columns, regrouped
  into 128 blocks of 64 columns, shifted by the block's zero point plus the constant offset and scaled by the block's
  scale.  Flattening and regrouping are row-major, so column \`k\` is field \`k % 8\` of word \`k / 8\` and lies in block
  \`k / 64\`; the block's zero point is field \`(k / 64) % 8\` of zero-point word \`(k / 64) / 8 = k / 512\`.  The lemmas below
  say this one stage at a time; the last one sums over the columns and adds the bias.
-/
import proofs.«411366_j27608049778857_3_alg».proof.Proof.Gen.ReferenceIdeal.Read
import proofs.«411366_j27608049778857_3_alg».proof.Proof.Spec
import Idealize.ShloMosaic.PureOps.Ideal
import Idealize.ShloMosaic.Lib.ValueIdx

noncomputable section

open scoped BigOperators

namespace Cert.RefIsG

open Idealize.ShloMosaic Idealize.ShloMosaic.ValueIdx Cert.ReferenceIdeal Cert.ReferenceIdeal.Read Cert.Dequant

/-! ## The packed weights -/

/-- Field \`j\` of word \`p\` of weight row \`n\`: the word shifted right by \`4 · j\`, low four bits kept. -/
theorem field_w (x1 : (⟨S28672x1024, .i32⟩ : BufTy).Contents (Elt Ideal)) (n : Fin 28672) (p : Fin 1024) (j : Fin 8) :
    val_main_v9 (F := Ideal) x1 (ix3 n p j) = nib .host (x1 (ix2 n p)) j.val := by
  rw [val_main_v9_apply, val_main_v7_apply, val_main_v5_apply, val_main_v3_apply, val_main_v6_apply, val_main_v4_apply,
    val_main_v2_apply, val_main_v0_apply, val_main_v1_apply, val_main_c_apply, val_main_v8_apply, val_main_c_0_apply]
  have e : idx_main_v3 (idx_main_v5 (ix3 n p j)) = ix2 n p := by
    funext a; match a with | ⟨0, _⟩ => rfl | ⟨1, _⟩ => rfl
  rw [e]
  rfl

/-- Column \`k\` of the flattened row is field \`k % 8\` of word \`k / 8\`. -/
theorem col_w (n : Fin 28672) (k : Fin 8192) :
    idx_main_v10 (ix2 n k) = ix3 n (⟨k.val / 8, by omega⟩ : Fin 1024) (⟨k.val % 8, by omega⟩ : Fin 8) := by
  funext a
  match a with
  | ⟨0, _⟩ => exact Fin.ext (by show (n.val * 8192 + k.val) / 8192 = n.val; omega)
  | ⟨1, _⟩ => exact Fin.ext (by show (n.val * 8192 + k.val) / 8 % 1024 = k.val / 8; omega)
  | ⟨2, _⟩ => exact Fin.ext (by show (n.val * 8192 + k.val) % 8 = k.val % 8; omega)

/-- The weight field at column \`k\`, read as a signed integer and then as a real. -/
theorem weight_q (x1 : (⟨S28672x1024, .i32⟩ : BufTy).Contents (Elt Ideal)) (n : Fin 28672) (k : Fin 8192) :
    val_main_v11 (F := Ideal) x1 (ix2 n k) = toR (nib .host (x1 (ix2 n ⟨k.val / 8, by omega⟩)) (k.val % 8)) := by
  rw [val_main_v11_apply, val_main_v10_apply, col_w, field_w]
  rfl

/-! ## The packed zero points -/

/-- Field \`j\` of zero-point word \`h\` of row \`n\`. -/
theorem field_z (x3 : (⟨S28672x16, .i32⟩ : BufTy).Contents (Elt Ideal)) (n : Fin 28672) (h : Fin 16) (j : Fin 8) :
    val_main_v21 (F := Ideal) x3 (ix3 n h j) = nib .host (x3 (ix2 n h)) j.val := by
  rw [val_main_v21_apply, val_main_v19_apply, val_main_v17_apply, val_main_v15_apply, val_main_v18_apply, val_main_v16_apply,
    val_main_v14_apply, val_main_v12_apply, val_main_v13_apply, val_main_c_1_apply, val_main_v20_apply, val_main_c_2_apply]
  have e : idx_main_v15 (idx_main_v17 (ix3 n h j)) = ix2 n h := by
    funext a; match a with | ⟨0, _⟩ => rfl | ⟨1, _⟩ => rfl
  rw [e]
  rfl

/-- Block \`g\` has its zero point in field \`g % 8\` of word \`g / 8\`. -/
theorem col_z (n : Fin 28672) (g : Fin 128) :
    idx_main_v22 (ix2 n g) = ix3 n (⟨g.val / 8, by omega⟩ : Fin 16) (⟨g.val % 8, by omega⟩ : Fin 8) := by
  funext a
  match a with
  | ⟨0, _⟩ => exact Fin.ext (by show (n.val * 128 + g.val) / 128 = n.val; omega)
  | ⟨1, _⟩ => exact Fin.ext (by show (n.val * 128 + g.val) / 8 % 16 = g.val / 8; omega)
  | ⟨2, _⟩ => exact Fin.ext (by show (n.val * 128 + g.val) % 8 = g.val % 8; omega)

/-- The zero point of block \`g\` plus the constant offset. -/
theorem zero_point (x3 : (⟨S28672x16, .i32⟩ : BufTy).Contents (Elt Ideal)) (n : Fin 28672) (g : Fin 128) :
    val_main_v25 (F := Ideal) x3 (ix2 n g) = toR (nib .host (x3 (ix2 n ⟨g.val / 8, by omega⟩)) (g.val % 8)) + off8 := by
  rw [val_main_v25_apply, val_main_v23_apply, val_main_v22_apply, col_z, field_z, val_main_v24_apply, val_main_cst_apply]
  rfl

/-! ## One weight -/

/-- Column \`k\` is position \`k % 64\` of block \`k / 64\`. -/
theorem col_blk (n : Fin 28672) (k : Fin 8192) :
    idx_main_v33 (ix2 n k) = ix3 n (⟨k.val / 64, by omega⟩ : Fin 128) (⟨k.val % 64, by omega⟩ : Fin 64) := by
  funext a
  match a with
  | ⟨0, _⟩ => exact Fin.ext (by show (n.val * 8192 + k.val) / 8192 = n.val; omega)
  | ⟨1, _⟩ => exact Fin.ext (by show (n.val * 8192 + k.val) / 64 % 128 = k.val / 64; omega)
  | ⟨2, _⟩ => exact Fin.ext (by show (n.val * 8192 + k.val) % 64 = k.val % 64; omega)

/-- And position \`k % 64\` of block \`k / 64\` is column \`k\` again. -/
theorem blk_col (n : Fin 28672) (k : Fin 8192) :
    idx_main_v26 (ix3 n (⟨k.val / 64, by omega⟩ : Fin 128) (⟨k.val % 64, by omega⟩ : Fin 64)) = ix2 n k := by
  funext a
  match a with
  | ⟨0, _⟩ => exact Fin.ext (by show ((n.val * 128 + k.val / 64) * 64 + k.val % 64) / 8192 = n.val; omega)
  | ⟨1, _⟩ => exact Fin.ext (by show ((n.val * 128 + k.val / 64) * 64 + k.val % 64) % 8192 = k.val; omega)

/-- Every position of a block reads the block's own zero point. -/
theorem blk_z (n : Fin 28672) (g : Fin 128) (r : Fin 64) : idx_main_v27 (idx_main_v28 (ix3 n g r)) = ix2 n g := by
  funext a; match a with | ⟨0, _⟩ => rfl | ⟨1, _⟩ => rfl

/-- Every position of a block reads the block's own scale. -/
theorem blk_s (n : Fin 28672) (g : Fin 128) (r : Fin 64) : idx_main_v30 (idx_main_v31 (ix3 n g r)) = ix2 n g := by
  funext a; match a with | ⟨0, _⟩ => rfl | ⟨1, _⟩ => rfl

/-- The weight at column \`k\` of row \`n\`, in the arrangement \`(q − (z + c)) · s\`. -/
theorem weight (x1 : (⟨S28672x1024, .i32⟩ : BufTy).Contents (Elt Ideal)) (x2 : (⟨S28672x128, .f32⟩ : BufTy).Contents (Elt Ideal))
    (x3 : (⟨S28672x16, .i32⟩ : BufTy).Contents (Elt Ideal)) (n : Fin 28672) (k : Fin 8192) :
    val_main_v33 (F := Ideal) x1 x2 x3 (ix2 n k) =
      deq off8 (nib .host (x1 (ix2 n ⟨k.val / 8, by omega⟩)) (k.val % 8))
        (nib .host (x3 (ix2 n ⟨k.val / 512, by omega⟩)) (k.val / 64 % 8)) (x2 (ix2 n ⟨k.val / 64, by omega⟩)) := by
  rw [val_main_v33_apply, col_blk, val_main_v32_apply, val_main_v29_apply, val_main_v26_apply, blk_col, weight_q,
    val_main_v28_apply, val_main_v27_apply, blk_z, zero_point, val_main_v31_apply, val_main_v30_apply, blk_s]
  have e : (⟨k.val / 64 / 8, by omega⟩ : Fin 16) = ⟨k.val / 512, by omega⟩ :=
    Fin.ext (by show k.val / 64 / 8 = k.val / 512; omega)
  rw [← e]
  rfl

/-! ## The whole result -/

/-- The reference's last stage, at Ideal, is the specification \`G\` of the five argument arrays. -/
theorem ref_eq_G (x0 : (⟨S32x8192, .f32⟩ : BufTy).Contents (Elt Ideal)) (x1 : (⟨S28672x1024, .i32⟩ : BufTy).Contents (Elt Ideal))
    (x2 : (⟨S28672x128, .f32⟩ : BufTy).Contents (Elt Ideal)) (x3 : (⟨S28672x16, .i32⟩ : BufTy).Contents (Elt Ideal))
    (x4 : (⟨S28672, .f32⟩ : BufTy).Contents (Elt Ideal)) :
    val_main_v37 (F := Ideal) x0 x1 x2 x3 x4 = Cert.Dequant.G x0 x1 x2 x3 x4 := by
  funext i
  have eb : idx_main_v35 (idx_main_v36 i) = ix1 (i 1) := by
    funext a; match a with | ⟨0, _⟩ => rfl
  have el : ∀ k : Fin 8192, lidx_main_v34 i k = ix2 (i 0) k := fun k => by
    funext a; match a with | ⟨0, _⟩ => rfl | ⟨1, _⟩ => rfl
  have er : ∀ k : Fin 8192, ridx_main_v34 i k = ix2 (i 1) k := fun k => by
    funext a; match a with | ⟨0, _⟩ => rfl | ⟨1, _⟩ => rfl
  rw [val_main_v37_apply, val_main_v34_apply, val_main_v36_apply, val_main_v35_apply, eb, Ideal.addf_def]
  show _ = rowOut .host off8 (fun k => x0 (ix2 (i 0) k)) (fun p => x1 (ix2 (i 1) p)) (fun g => x2 (ix2 (i 1) g))
    (fun h => x3 (ix2 (i 1) h)) (x4 (ix1 (i 1)))
  unfold rowOut
  refine congrArg (· + x4 (ix1 (i 1))) (Finset.sum_congr rfl fun k _ => ?_)
  rw [el, er]
  exact congrArg (fun w => x0 (ix2 (i 0) k) * w) (weight x1 x2 x3 (i 1) k)

end Cert.RefIsG

end
-- ==== Proof.KernelPay.lean ====
/-
  The kernel body's output block, entry by entry.

  The body cuts every packed word of the weight block into its eight four-bit fields (a word of row q at column c gives
  columns 8c … 8c+7 of the unpacked row), does the same to the packed zero points (sixteen words give 128 fields, one per
  block of 64 columns), repeats each of the 128 per-block numbers of a row 64 times along the row, and contracts the
  activations with  q · s − (z + c) · s  over the 8192 columns, then adds the bias.  Read at entry (p, q) this is the
  sum over k of  x[p, k] · (field (k % 8) of word k / 8, times scale k / 64, minus (field (k / 64 % 8) of zero-point word
  k / 512, plus c) times scale k / 64)  plus bias q: the specification's block function.  Everything here is index
  arithmetic: a reshape keeps the row-major position, a broadcast along a unit axis forgets that coordinate.
-/
import proofs.«411366_j27608049778857_3_alg».proof.Proof.Gen.KernelIdeal.Value
import proofs.«411366_j27608049778857_3_alg».proof.Proof.Spec
import Idealize.ShloMosaic.Lib.ValueIdx
import Idealize.ShloMosaic.Lib.Pipeline.Value
import Idealize.ShloMosaic.PureOps.Ideal.Laws

noncomputable section

open scoped BigOperators

namespace Cert.KernelPay

open Idealize.ShloMosaic Idealize.ShloMosaic.ValueIdx Cert.KernelIdeal Cert.KernelIdeal.Gen

/-! ## The three layout chains, as functions of the block they re-lay -/

/-- The eight fields of every word of a [128, 1024] block, laid out as a [128, 8192] block. -/
def fieldsW (v : IVec S128x1024 32) : IVec S128x8192 32 :=
  shapeCast S128x8192
    (andi
      (shrsi
        (broadcastTo S128x1024x8 (shapeCast S128x1024x1 v shapeCasts_S128x1024_S128x1024x1) broadcasts_S128x1024x1_S128x1024x8)
        (muli (iota .tc S128x1024x8 32 [2] iota_S128x1024x8_d2_w32) (broadcast S128x1024x8 4#32)))
      (broadcast S128x1024x8 15#32))
    shapeCasts_S128x1024x8_S128x8192

/-- The eight fields of every word of a [128, 16] block, laid out as a [128, 128] block. -/
def fieldsZ (v : IVec S128x16 32) : IVec S128x128 32 :=
  shapeCast S128x128
    (andi
      (shrsi
        (broadcastTo S128x16x8 (shapeCast S128x16x1 v shapeCasts_S128x16_S128x16x1) broadcasts_S128x16x1_S128x16x8)
        (muli (iota .tc S128x16x8 32 [2] iota_S128x16x8_d2_w32) (broadcast S128x16x8 4#32)))
      (broadcast S128x16x8 15#32))
    shapeCasts_S128x16x8_S128x128

/-- Each entry of a [128, 128] block repeated 64 times along its row: a [128, 8192] block. -/
def rep64 {α : Type} (x : S128x128.Idx → α) : S128x8192.Idx → α :=
  shapeCast S128x8192
    (broadcastTo S128x128x64
      (shapeCast S128x128x1 (shapeCast S128x128x1 x shapeCasts_S128x128_S128x128x1) shapeCasts_S128x128x1_S128x128x1)
      broadcasts_S128x128x1_S128x128x64)
    shapeCasts_S128x128x64_S128x8192

/-- Column k of the unpacked row q is field k % 8 of word k / 8 of row q. -/
theorem fieldsW_apply (v : IVec S128x1024 32) (q : Fin 128) (k : Fin 8192) :
    fieldsW v (ix2 q k) = Cert.Dequant.nib .vector (v (ix2 q ⟨k.val / 8, by omega⟩)) (k.val % 8) := by
  unfold fieldsW
  refine (shapeCast_apply _ shapeCasts_S128x1024x8_S128x8192 (ix2 q k)
    (ix3 q (⟨k.val / 8, by omega⟩ : Fin 1024) (⟨k.val % 8, by omega⟩ : Fin 8)) ?_).trans ?_
  · rw [Shape.rowMajor_val_three, Shape.rowMajor_val_two]
    show (q.val * 1024 + k.val / 8) * 8 + k.val % 8 = q.val * 8192 + k.val
    omega
  · have e1 : (broadcastTo S128x1024x8 (shapeCast S128x1024x1 v shapeCasts_S128x1024_S128x1024x1) broadcasts_S128x1024x1_S128x1024x8)
        (ix3 q (⟨k.val / 8, by omega⟩ : Fin 1024) (⟨k.val % 8, by omega⟩ : Fin 8)) = v (ix2 q ⟨k.val / 8, by omega⟩) := by
      refine (broadcastTo_apply _ broadcasts_S128x1024x1_S128x1024x8 _
        (ix3 q (⟨k.val / 8, by omega⟩ : Fin 1024) (⟨0, by omega⟩ : Fin 1)) (fun a => match a with
          | ⟨0, _⟩ => by show q.val = (if (128 : Nat) = 1 then 0 else q.val); rw [if_neg (by decide)]
          | ⟨1, _⟩ => by show k.val / 8 = (if (1024 : Nat) = 1 then 0 else k.val / 8); rw [if_neg (by decide)]
          | ⟨2, _⟩ => by show 0 = (if (1 : Nat) = 1 then 0 else k.val % 8); rw [if_pos rfl])).trans ?_
      refine shapeCast_apply v shapeCasts_S128x1024_S128x1024x1 _ (ix2 q ⟨k.val / 8, by omega⟩) ?_
      rw [Shape.rowMajor_val_two, Shape.rowMajor_val_three]
      show q.val * 1024 + k.val / 8 = (q.val * 1024 + k.val / 8) * 1 + 0
      omega
    have e2 : (iota .tc S128x1024x8 32 [2] iota_S128x1024x8_d2_w32)
        (ix3 q (⟨k.val / 8, by omega⟩ : Fin 1024) (⟨k.val % 8, by omega⟩ : Fin 8)) = BitVec.ofNat 32 (k.val % 8) :=
      iota_single_apply .tc S128x1024x8 32 2 iota_S128x1024x8_d2_w32 _
    show IntOp.andi (IntOp.shrsi .vector
        ((broadcastTo S128x1024x8 (shapeCast S128x1024x1 v shapeCasts_S128x1024_S128x1024x1) broadcasts_S128x1024x1_S128x1024x8)
          (ix3 q (⟨k.val / 8, by omega⟩ : Fin 1024) (⟨k.val % 8, by omega⟩ : Fin 8)))
        (IntOp.muli ((iota .tc S128x1024x8 32 [2] iota_S128x1024x8_d2_w32)
          (ix3 q (⟨k.val / 8, by omega⟩ : Fin 1024) (⟨k.val % 8, by omega⟩ : Fin 8))) 4#32)) 15#32 = _
    rw [e1, e2]
    rfl

/-- Column g of the unpacked zero-point row q is field g % 8 of word g / 8 of row q. -/
theorem fieldsZ_apply (v : IVec S128x16 32) (q : Fin 128) (g : Fin 128) :
    fieldsZ v (ix2 q g) = Cert.Dequant.nib .vector (v (ix2 q ⟨g.val / 8, by omega⟩)) (g.val % 8) := by
  unfold fieldsZ
  refine (shapeCast_apply _ shapeCasts_S128x16x8_S128x128 (ix2 q g)
    (ix3 q (⟨g.val / 8, by omega⟩ : Fin 16) (⟨g.val % 8, by omega⟩ : Fin 8)) ?_).trans ?_
  · rw [Shape.rowMajor_val_three, Shape.rowMajor_val_two]
    show (q.val * 16 + g.val / 8) * 8 + g.val % 8 = q.val * 128 + g.val
    omega
  · have e1 : (broadcastTo S128x16x8 (shapeCast S128x16x1 v shapeCasts_S128x16_S128x16x1) broadcasts_S128x16x1_S128x16x8)
        (ix3 q (⟨g.val / 8, by omega⟩ : Fin 16) (⟨g.val % 8, by omega⟩ : Fin 8)) = v (ix2 q ⟨g.val / 8, by omega⟩) := by
      refine (broadcastTo_apply _ broadcasts_S128x16x1_S128x16x8 _
        (ix3 q (⟨g.val / 8, by omega⟩ : Fin 16) (⟨0, by omega⟩ : Fin 1)) (fun a => match a with
          | ⟨0, _⟩ => by show q.val = (if (128 : Nat) = 1 then 0 else q.val); rw [if_neg (by decide)]
          | ⟨1, _⟩ => by show g.val / 8 = (if (16 : Nat) = 1 then 0 else g.val / 8); rw [if_neg (by decide)]
          | ⟨2, _⟩ => by show 0 = (if (1 : Nat) = 1 then 0 else g.val % 8); rw [if_pos rfl])).trans ?_
      refine shapeCast_apply v shapeCasts_S128x16_S128x16x1 _ (ix2 q ⟨g.val / 8, by omega⟩) ?_
      rw [Shape.rowMajor_val_two, Shape.rowMajor_val_three]
      show q.val * 16 + g.val / 8 = (q.val * 16 + g.val / 8) * 1 + 0
      omega
    have e2 : (iota .tc S128x16x8 32 [2] iota_S128x16x8_d2_w32)
        (ix3 q (⟨g.val / 8, by omega⟩ : Fin 16) (⟨g.val % 8, by omega⟩ : Fin 8)) = BitVec.ofNat 32 (g.val % 8) :=
      iota_single_apply .tc S128x16x8 32 2 iota_S128x16x8_d2_w32 _
    show IntOp.andi (IntOp.shrsi .vector
        ((broadcastTo S128x16x8 (shapeCast S128x16x1 v shapeCasts_S128x16_S128x16x1) broadcasts_S128x16x1_S128x16x8)
          (ix3 q (⟨g.val / 8, by omega⟩ : Fin 16) (⟨g.val % 8, by omega⟩ : Fin 8)))
        (IntOp.muli ((iota .tc S128x16x8 32 [2] iota_S128x16x8_d2_w32)
          (ix3 q (⟨g.val / 8, by omega⟩ : Fin 16) (⟨g.val % 8, by omega⟩ : Fin 8))) 4#32)) 15#32 = _
    rw [e1, e2]
    rfl

/-- Column k of the repeated row q is entry k / 64 of row q. -/
theorem rep64_apply {α : Type} (x : S128x128.Idx → α) (q : Fin 128) (k : Fin 8192) :
    rep64 x (ix2 q k) = x (ix2 q ⟨k.val / 64, by omega⟩) := by
  unfold rep64
  rw [shapeCast_self]
  refine (shapeCast_apply _ shapeCasts_S128x128x64_S128x8192 (ix2 q k)
    (ix3 q (⟨k.val / 64, by omega⟩ : Fin 128) (⟨k.val % 64, by omega⟩ : Fin 64)) ?_).trans ?_
  · rw [Shape.rowMajor_val_three, Shape.rowMajor_val_two]
    show (q.val * 128 + k.val / 64) * 64 + k.val % 64 = q.val * 8192 + k.val
    omega
  · refine (broadcastTo_apply _ broadcasts_S128x128x1_S128x128x64 _
      (ix3 q (⟨k.val / 64, by omega⟩ : Fin 128) (⟨0, by omega⟩ : Fin 1)) (fun a => match a with
        | ⟨0, _⟩ => by show q.val = (if (128 : Nat) = 1 then 0 else q.val); rw [if_neg (by decide)]
        | ⟨1, _⟩ => by show k.val / 64 = (if (128 : Nat) = 1 then 0 else k.val / 64); rw [if_neg (by decide)]
        | ⟨2, _⟩ => by show 0 = (if (1 : Nat) = 1 then 0 else k.val % 64); rw [if_pos rfl])).trans ?_
    refine shapeCast_apply x shapeCasts_S128x128_S128x128x1 _ (ix2 q ⟨k.val / 64, by omega⟩) ?_
    rw [Shape.rowMajor_val_two, Shape.rowMajor_val_three]
    show q.val * 128 + k.val / 64 = (q.val * 128 + k.val / 64) * 1 + 0
    omega

/-! ## The contraction read at an entry -/

theorem lhs_0 (i : S32x128.Idx) (c : dot_S32x8192_S128x8192_S32x128_1_1_0_0_n_n.contr.Idx) :
    (dot_S32x8192_S128x8192_S32x128_1_1_0_0_n_n.lhsIdx i c 0).val = (i 0).val := by
  unfold DotDims.lhsIdx
  rw [dif_neg (show ¬(0 : Fin S32x8192.rank) ∈ dot_S32x8192_S128x8192_S32x128_1_1_0_0_n_n.lhsBatch by decide), dif_pos (show (0 : Fin S32x8192.rank) ∈ dot_S32x8192_S128x8192_S32x128_1_1_0_0_n_n.lhsNonContracting by decide)]
  rfl
theorem lhs_1 (i : S32x128.Idx) (c : dot_S32x8192_S128x8192_S32x128_1_1_0_0_n_n.contr.Idx) :
    (dot_S32x8192_S128x8192_S32x128_1_1_0_0_n_n.lhsIdx i c 1).val = (c ⟨0, by decide⟩).val :=
  dot_S32x8192_S128x8192_S32x128_1_1_0_0_n_n.lhsIdx_val_of_single rfl i c
theorem rhs_0 (i : S32x128.Idx) (c : dot_S32x8192_S128x8192_S32x128_1_1_0_0_n_n.contr.Idx) :
    (dot_S32x8192_S128x8192_S32x128_1_1_0_0_n_n.rhsIdx i c 0).val = (i 1).val := by
  unfold DotDims.rhsIdx
  rw [dif_neg (show ¬(0 : Fin S128x8192.rank) ∈ dot_S32x8192_S128x8192_S32x128_1_1_0_0_n_n.rhsBatch by decide), dif_pos (show (0 : Fin S128x8192.rank) ∈ dot_S32x8192_S128x8192_S32x128_1_1_0_0_n_n.rhsNonContracting by decide)]
  rfl
theorem rhs_1 (i : S32x128.Idx) (c : dot_S32x8192_S128x8192_S32x128_1_1_0_0_n_n.contr.Idx) :
    (dot_S32x8192_S128x8192_S32x128_1_1_0_0_n_n.rhsIdx i c 1).val = (c ⟨0, by decide⟩).val :=
  dot_S32x8192_S128x8192_S32x128_1_1_0_0_n_n.rhsIdx_val_of_single rfl i c

/-- Entry (p, q) of the product into a zero accumulator is row p of the left operand against row q of the right. -/
theorem mm_apply (A : FVec Ideal S32x8192 .bf16) (B : FVec Ideal S128x8192 .bf16) (p : Fin 32) (q : Fin 128) :
    (matmul (F := Ideal) dot_S32x8192_S128x8192_S32x128_1_1_0_0_n_n none A B (constant (F := Ideal) S32x128 .f32 0x00000000#32)) (ix2 p q)
      = ∑ k : Fin 8192, A (ix2 p k) * B (ix2 q k) := by
  refine (Ideal.matmul_constant_zero_apply dot_S32x8192_S128x8192_S32x128_1_1_0_0_n_n none A B (ix2 p q)).trans ?_
  rw [← Equiv.sum_comp (contrEquiv1 dot_S32x8192_S128x8192_S32x128_1_1_0_0_n_n 8192 rfl rfl).symm]
  refine Finset.sum_congr rfl fun k _ => ?_
  have hk := contrEquiv1_symm_val dot_S32x8192_S128x8192_S32x128_1_1_0_0_n_n 8192 rfl rfl k
  have el : dot_S32x8192_S128x8192_S32x128_1_1_0_0_n_n.lhsIdx (ix2 p q) ((contrEquiv1 dot_S32x8192_S128x8192_S32x128_1_1_0_0_n_n 8192 rfl rfl).symm k) = ix2 p k := funext fun a => Fin.ext (by
    match a with
    | ⟨0, _⟩ => exact lhs_0 _ _
    | ⟨1, _⟩ => exact (lhs_1 _ _).trans hk)
  have er : dot_S32x8192_S128x8192_S32x128_1_1_0_0_n_n.rhsIdx (ix2 p q) ((contrEquiv1 dot_S32x8192_S128x8192_S32x128_1_1_0_0_n_n 8192 rfl rfl).symm k) = ix2 q k := funext fun a => Fin.ext (by
    match a with
    | ⟨0, _⟩ => exact rhs_0 _ _
    | ⟨1, _⟩ => exact (rhs_1 _ _).trans hk)
  rw [el, er]

/-! ## The body's arithmetic over the three chains, and its entries -/

/-- The contraction's operands and accumulator, named. -/
theorem pay2_shape (P0 : Vec Ideal S128x1024 .i32) (P1 : Vec Ideal S128x16 .i32) (P2 : Vec Ideal S128x128 .f32) (P3 : Vec Ideal S32x8192 .f32) :
    k0_pay2 (F := Ideal) P0 P1 P2 P3
      = matmul (F := Ideal) dot_S32x8192_S128x8192_S32x128_1_1_0_0_n_n none (truncf .bf16 P3 bitsLt_bf16_f32)
          (subf (mulf (sitofp .bf16 (fieldsW P0)) (rep64 (truncf .bf16 P2 bitsLt_bf16_f32)))
            (rep64 (truncf .bf16 (mulf (addf (sitofp .f32 (fieldsZ P1)) (broadcast S128x128 (Scalar.ofBits (F := Ideal) .f32 0x41000000#32))) P2) bitsLt_bf16_f32)))
          (constant (F := Ideal) S32x128 .f32 0x00000000#32) := rfl

/-- Entry (p, q) of the contraction is the specification's sum. -/
theorem pay2_apply (P0 : Vec Ideal S128x1024 .i32) (P1 : Vec Ideal S128x16 .i32) (P2 : Vec Ideal S128x128 .f32) (P3 : Vec Ideal S32x8192 .f32)
    (p : Fin 32) (q : Fin 128) :
    k0_pay2 (F := Ideal) P0 P1 P2 P3 (ix2 p q)
      = ∑ k : Fin 8192, P3 (ix2 p k) * Cert.Dequant.deqK Cert.Dequant.off8
          (Cert.Dequant.nib .vector (P0 (ix2 q ⟨k.val / 8, by omega⟩)) (k.val % 8))
          (Cert.Dequant.nib .vector (P1 (ix2 q ⟨k.val / 512, by omega⟩)) (k.val / 64 % 8))
          (P2 (ix2 q ⟨k.val / 64, by omega⟩)) := by
  rw [pay2_shape]
  refine (mm_apply _ _ p q).trans ?_
  refine Finset.sum_congr rfl fun k _ => ?_
  show P3 (ix2 p k) *
      (((fieldsW P0 (ix2 q k)).toInt : ℝ) * rep64 (truncf (F := Ideal) .bf16 P2 bitsLt_bf16_f32) (ix2 q k)
        - rep64 (truncf (F := Ideal) .bf16 (mulf (addf (sitofp .f32 (fieldsZ P1)) (broadcast S128x128 (Scalar.ofBits (F := Ideal) .f32 0x41000000#32))) P2) bitsLt_bf16_f32) (ix2 q k)) = _
  rw [fieldsW_apply, rep64_apply, rep64_apply]
  show P3 (ix2 p k) *
      (((Cert.Dequant.nib .vector (P0 (ix2 q ⟨k.val / 8, by omega⟩)) (k.val % 8)).toInt : ℝ) * P2 (ix2 q ⟨k.val / 64, by omega⟩)
        - ((((fieldsZ P1 (ix2 q (⟨k.val / 64, by omega⟩ : Fin 128))).toInt : ℝ) : EReal) + Ideal.ofBits .f32 0x41000000#32) * P2 (ix2 q ⟨k.val / 64, by omega⟩)) = _
  rw [fieldsZ_apply]
  have hz : (⟨k.val / 64 / 8, by omega⟩ : Fin 16) = ⟨k.val / 512, by omega⟩ := Fin.ext (by show k.val / 64 / 8 = k.val / 512; omega)
  rw [hz]
  rfl

/-! ## The block -/

/-- What the kernel body leaves in its output block, at Ideal, is the specification's block function of the five loaded blocks. -/
theorem E5_eq_Gblk (P0 : Vec Ideal S128x1024 .i32) (P1 : Vec Ideal S128x16 .i32) (P2 : Vec Ideal S128x128 .f32)
    (P3 : Vec Ideal S32x8192 .f32) (P4 : Vec Ideal S128 .f32) :
    Cert.KernelIdeal.Value.E5 (F := Ideal) P0 P1 P2 P3 P4 = Cert.Dequant.Gblk P3 P0 P2 P1 P4 := by
  funext y
  obtain ⟨p, q, rfl⟩ : ∃ (p : Fin 32) (q : Fin 128), y = ix2 p q := ⟨y 0, y 1, eq_ix2 y⟩
  have e0 : Cert.KernelIdeal.Value.ix5_0 (ix2 p q) = ix2 p q := by
    funext a; match a with | ⟨0, _⟩ => rfl | ⟨1, _⟩ => rfl
  have e1 : Cert.KernelIdeal.Value.ix5_1 (ix2 p q) = ix1 q := by
    funext a; match a with | ⟨0, _⟩ => rfl
  show k0_pay2 (F := Ideal) P0 P1 P2 P3 (Cert.KernelIdeal.Value.ix5_0 (ix2 p q)) + P4 (Cert.KernelIdeal.Value.ix5_1 (ix2 p q))
    = Cert.Dequant.rowOutK .vector Cert.Dequant.off8 (fun k => P3 (ix2 p k)) (fun a => P0 (ix2 q a)) (fun g => P2 (ix2 q g))
        (fun h => P1 (ix2 q h)) (P4 (ix1 q))
  rw [e0, e1, pay2_apply]
  rfl

end Cert.KernelPay

end
-- ==== Proof.Blocks.lean ====
/-
  From what one grid point writes back to the whole result array.

  The grid has 224 points.  Point `t` is handed all 32 activation rows, weight rows `128·t … 128·t + 127` (their packed
  words, their scales, their packed zero points, their biases), and writes back columns `128·t … 128·t + 127` of the
  result.  What it writes is the block function of its five blocks; read through where each block sits in its array,
  with every scale a real number, that is the whole-array function at the same rows and columns.  The 224 column
  ranges tile the result, so the array after the run is the whole-array function.
-/
import proofs.«411366_j27608049778857_3_alg».proof.Proof.Gen.KernelIdeal.Value
import proofs.«411366_j27608049778857_3_alg».proof.Proof.Spec
import Idealize.ShloMosaic.Lib.Pipeline.Value
import Idealize.ShloMosaic.Lib.ValueIdx

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays and the blocks, at their literal types -/

/-- The activations, the packed weights, the scales, the packed zero points and the biases as the region finds them. -/
abbrev xarr (c : Dev nD) : Vec Ideal S32x8192 .f32 := V m c main_arg0
abbrev qwarr (c : Dev nD) : Vec Ideal S28672x1024 .i32 := V m c main_arg1
abbrev scarr (c : Dev nD) : Vec Ideal S28672x128 .f32 := V m c main_arg2
abbrev qzarr (c : Dev nD) : Vec Ideal S28672x16 .i32 := V m c main_arg3
abbrev barr (c : Dev nD) : Vec Ideal S28672 .f32 := V m c main_arg4

/-- Their blocks at point `t`. -/
abbrev xblk (c : Dev nD) (t : Fin cfg0.N) : Vec Ideal S32x8192 .f32 := iblk m c 0 t
abbrev qwblk (c : Dev nD) (t : Fin cfg0.N) : Vec Ideal S128x1024 .i32 := iblk m c 1 t
abbrev scblk (c : Dev nD) (t : Fin cfg0.N) : Vec Ideal S128x128 .f32 := iblk m c 2 t
abbrev qzblk (c : Dev nD) (t : Fin cfg0.N) : Vec Ideal S128x16 .i32 := iblk m c 3 t
abbrev bblk (c : Dev nD) (t : Fin cfg0.N) : Vec Ideal S128 .f32 := iblk m c 4 t

/-- The whole-array function of the arrays as the region finds them. -/
abbrev result (c : Dev nD) : Vec Ideal S32x28672 .f32 :=
  Cert.Dequant.G (xarr m c) (qwarr m c) (scarr m c) (qzarr m c) (barr m c)

/-! ## Where the blocks sit -/

theorem hz2 : (![0, 0] : Fin 2 → Nat) = fun _ => 0 := funext fun a => by fin_cases a <;> rfl
theorem hz1 : (![0] : Fin 1 → Nat) = fun _ => 0 := funext fun a => by fin_cases a; rfl

/-- A point's position is below 224. -/
theorem pt_lt (t : Fin cfg0.N) : t.val < 224 := lt_of_lt_of_eq t.isLt N_0

/-- Row (or column) `q` of point `t`'s block is row `128·t + q` of the array. -/
def rowOf (t : Fin cfg0.N) (q : Fin 128) : Fin 28672 := ⟨t.val * 128 + q.val, by have := pt_lt t; have := q.isLt; omega⟩

/-- The block indices, decided over the grid: the activations' block never moves, the four weight-side blocks and the
    result's block move with the point along their row (the result: column) axis. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 1) = t.val
    ∧ win0_5.index t (0 : Fin 2) = 0 ∧ win0_5.index t (1 : Fin 2) = t.val :=
  (by decide +kernel : ∀ t : Fin grid0.N, _)

/-- The activations' block is the whole array. -/
theorem xblk_apply (c : Dev nD) (t : Fin cfg0.N) (p : Fin 32) (k : Fin 8192) : xblk m c t (ix2 p k) = xarr m c (ix2 p k) := by
  obtain ⟨e0, e1, -⟩ := idx_facts t
  show V m c main_arg0 (((cfg0.win 0).blk t).view.emb (ix2 p k)) = V m c main_arg0 (ix2 p k)
  refine congrArg (V m c main_arg0) (funext fun a => Fin.ext ?_)
  match a with
  | ⟨0, _⟩ => show win0_0.index t (0 : Fin 2) * 32 + 1 * p.val = p.val; omega
  | ⟨1, _⟩ => show win0_0.index t (1 : Fin 2) * 8192 + 1 * k.val = k.val; omega

/-- Row `q` of the packed-weight block is row `128·t + q` of the packed weights. -/
theorem qwblk_apply (c : Dev nD) (t : Fin cfg0.N) (q : Fin 128) (p : Fin 1024) :
    qwblk m c t (ix2 q p) = qwarr m c (ix2 (rowOf t q) p) := by
  obtain ⟨-, -, e0, e1, -⟩ := idx_facts t
  show V m c main_arg1 (((cfg0.win 1).blk t).view.emb (ix2 q p)) = V m c main_arg1 (ix2 (rowOf t q) p)
  refine congrArg (V m c main_arg1) (funext fun a => Fin.ext ?_)
  match a with
  | ⟨0, _⟩ => show win0_1.index t (0 : Fin 2) * 128 + 1 * q.val = t.val * 128 + q.val; omega
  | ⟨1, _⟩ => show win0_1.index t (1 : Fin 2) * 1024 + 1 * p.val = p.val; omega

/-- Row `q` of the scale block is row `128·t + q` of the scales. -/
theorem scblk_apply (c : Dev nD) (t : Fin cfg0.N) (q : Fin 128) (g : Fin 128) :
    scblk m c t (ix2 q g) = scarr m c (ix2 (rowOf t q) g) := by
  obtain ⟨-, -, -, -, e0, e1, -⟩ := idx_facts t
  show V m c main_arg2 (((cfg0.win 2).blk t).view.emb (ix2 q g)) = V m c main_arg2 (ix2 (rowOf t q) g)
  refine congrArg (V m c main_arg2) (funext fun a => Fin.ext ?_)
  match a with
  | ⟨0, _⟩ => show win0_2.index t (0 : Fin 2) * 128 + 1 * q.val = t.val * 128 + q.val; omega
  | ⟨1, _⟩ => show win0_2.index t (1 : Fin 2) * 128 + 1 * g.val = g.val; omega

/-- Row `q` of the packed zero-point block is row `128·t + q` of the packed zero points. -/
theorem qzblk_apply (c : Dev nD) (t : Fin cfg0.N) (q : Fin 128) (h : Fin 16) :
    qzblk m c t (ix2 q h) = qzarr m c (ix2 (rowOf t q) h) := by
  obtain ⟨-, -, -, -, -, -, e0, e1, -⟩ := idx_facts t
  show V m c main_arg3 (((cfg0.win 3).blk t).view.emb (ix2 q h)) = V m c main_arg3 (ix2 (rowOf t q) h)
  refine congrArg (V m c main_arg3) (funext fun a => Fin.ext ?_)
  match a with
  | ⟨0, _⟩ => show win0_3.index t (0 : Fin 2) * 128 + 1 * q.val = t.val * 128 + q.val; omega
  | ⟨1, _⟩ => show win0_3.index t (1 : Fin 2) * 16 + 1 * h.val = h.val; omega

/-- Entry `q` of the bias block is entry `128·t + q` of the biases. -/
theorem bblk_apply (c : Dev nD) (t : Fin cfg0.N) (q : Fin 128) : bblk m c t (ix1 q) = barr m c (ix1 (rowOf t q)) := by
  obtain ⟨-, -, -, -, -, -, -, -, e0, -⟩ := idx_facts t
  show V m c main_arg4 (((cfg0.win 4).blk t).view.emb (ix1 q)) = V m c main_arg4 (ix1 (rowOf t q))
  refine congrArg (V m c main_arg4) (funext fun a => Fin.ext ?_)
  match a with
  | ⟨0, _⟩ => show win0_4.index t (0 : Fin 1) * 128 + 1 * q.val = t.val * 128 + q.val; omega

/-- Entry `(p, q)` of the result's block is entry `(p, 128·t + q)` of the result. -/
theorem oblk_emb (t : Fin cfg0.N) (p : Fin 32) (q : Fin 128) :
    ((cfg0.win 5).blk t).view.emb (ix2 p q) = (ix2 p (rowOf t q) : S32x28672.Idx) := by
  obtain ⟨-, -, -, -, -, -, -, -, -, e0, e1⟩ := idx_facts t
  refine funext fun a => Fin.ext ?_
  match a with
  | ⟨0, _⟩ => show win0_5.index t (0 : Fin 2) * 32 + 1 * p.val = p.val; omega
  | ⟨1, _⟩ => show win0_5.index t (1 : Fin 2) * 128 + 1 * q.val = t.val * 128 + q.val; omega

/-! ## What a point writes back -/

/-- The block function of point `t`'s blocks is the whole-array function at the block's rows and columns, once every
    scale is a real number. -/
theorem Gblk_blocks (c : Dev nD) (hs : ∀ j, ∃ r : ℝ, scarr m c j = (r : EReal)) (t : Fin cfg0.N) (p : Fin 32) (q : Fin 128) :
    Cert.Dequant.Gblk (xblk m c t) (qwblk m c t) (scblk m c t) (qzblk m c t) (bblk m c t) (ix2 p q)
      = result m c (ix2 p (rowOf t q)) := by
  unfold result Cert.Dequant.Gblk Cert.Dequant.G
  rw [Cert.Dequant.rowOutK_eq_rowOut .vector .host Cert.Dequant.off8_real _ _ (fun g => by
    show ∃ r : ℝ, scblk m c t (ix2 q g) = (r : EReal); rw [scblk_apply]; exact hs _)]
  show Cert.Dequant.rowOut .host Cert.Dequant.off8 (fun k => xblk m c t (ix2 p k)) (fun p' => qwblk m c t (ix2 q p'))
      (fun g => scblk m c t (ix2 q g)) (fun h => qzblk m c t (ix2 q h)) (bblk m c t (ix1 q))
    = Cert.Dequant.rowOut .host Cert.Dequant.off8 (fun k => xarr m c (ix2 p k)) (fun p' => qwarr m c (ix2 (rowOf t q) p'))
      (fun g => scarr m c (ix2 (rowOf t q) g)) (fun h => qzarr m c (ix2 (rowOf t q) h)) (barr m c (ix1 (rowOf t q)))
  rw [bblk_apply]
  congr 1
  · funext k; exact xblk_apply m c t p k
  · funext p'; exact qwblk_apply m c t q p'
  · funext g; exact scblk_apply m c t q g
  · funext h; exact qzblk_apply m c t q h

/-- WHAT POINT `t` WRITES BACK is block `t` of the whole-array function.  `hE`: what the body leaves in its output block
    is the block function of its five loaded blocks. -/
theorem flushed_eq
    (hE : ∀ (P0 : Vec Ideal S128x1024 .i32) (P1 : Vec Ideal S128x16 .i32) (P2 : Vec Ideal S128x128 .f32)
      (P3 : Vec Ideal S32x8192 .f32) (P4 : Vec Ideal S128 .f32),
      Cert.KernelIdeal.Value.E5 (F := Ideal) P0 P1 P2 P3 P4 = Cert.Dequant.Gblk P3 P0 P2 P1 P4)
    (c : Dev nD) (hs : ∀ j, ∃ r : ℝ, scarr m c j = (r : EReal)) (t : Fin cfg0.N) :
    (dats m 0 c).flushed 5 t = ((cfg0.win 5).blk t).view.read (Elt Ideal) (result m c) := by
  show (cfg0.win 5).cut (grid0.coords t) ((dats m 0 c).after 5 t) = _
  rw [after0_5]
  funext y
  show out0_5 (xblk m c t) (qwblk m c t) (scblk m c t) (qzblk m c t) (bblk m c t) y
    = result m c (((cfg0.win 5).blk t).view.emb y)
  unfold out0_5
  rw [Cert.KernelIdeal.Value.canon5_eq]
  simp only [View.ld_unit_zero (S := S128x1024) hz2, View.ld_unit_zero (S := S128x16) hz2,
    View.ld_unit_zero (S := S128x128) hz2, View.ld_unit_zero (S := S32x8192) hz2, View.ld_unit_zero (S := S128) hz1]
  rw [hE]
  obtain ⟨p, q, rfl⟩ : ∃ (p : Fin 32) (q : Fin 128), y = ix2 p q := ⟨y 0, y 1, eq_ix2 y⟩
  rw [oblk_emb]
  exact Gblk_blocks m c hs t p q

/-! ## The array after the run -/

/-- Every entry of the result lies in the block of the point its column names. -/
theorem cover (i : S32x28672.Idx) : ∃ t : Fin cfg0.N, (cfg0.win 5).flush t = true ∧ i ∈ ((cfg0.win 5).blk t).view.set := by
  have h0 : (i 0).val < 32 := (i 0).isLt
  have h1 : (i 1).val < 28672 := (i 1).isLt
  let t : Fin cfg0.N := ⟨(i 1).val / 128, lt_of_lt_of_eq (by omega : (i 1).val / 128 < 224) N_0.symm⟩
  obtain ⟨-, -, -, -, -, -, -, -, -, e0, e1⟩ := idx_facts t
  refine ⟨t, flush0_5 t, ?_⟩
  show i ∈ ((View.whole main_v0).slice (win0_5.rect t)).set
  rw [View.set_slice_whole, Rect.mem_set_unit]
  intro a
  have ht : t.val = (i 1).val / 128 := rfl
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 128 ≤ (i 1).val ∧ (i 1).val < win0_5.index t (1 : Fin 2) * 128 + 128; omega

/-- THE RESULT ARRAY after the run is the whole-array function of the arrays as the region finds them. -/
theorem final
    (hE : ∀ (P0 : Vec Ideal S128x1024 .i32) (P1 : Vec Ideal S128x16 .i32) (P2 : Vec Ideal S128x128 .f32)
      (P3 : Vec Ideal S32x8192 .f32) (P4 : Vec Ideal S128 .f32),
      Cert.KernelIdeal.Value.E5 (F := Ideal) P0 P1 P2 P3 P4 = Cert.Dequant.Gblk P3 P0 P2 P1 P4)
    (c : Dev nD) (hs : ∀ j, ∃ r : ℝ, scarr m c j = (r : EReal)) :
    (dats m 0 c).arrAt 5 cfg0.N = result m c :=
  (dats m 0 c).arrAt_eq_of_cover 5 (result m c) (fun t _ => flushed_eq m hE c hs t) cover

end Cert.KernelValue

end
-- ==== Proof.lean ====
/-
  The certificate: an int4 weight-only-quantized linear layer, `y = x · Wᵀ + bias`, computed by a tiled kernel and
  by a whole-array reference, is one function of its five inputs over the extended reals.

  The weight matrix W (28672 × 8192) is never stored: each row is 1024 packed words of eight four-bit fields, a scale per
  block of 64 columns and a packed four-bit zero point per block, and `W n k = (q − (z + 8)) · s`.  The reference
  dequantizes all of W in that form and contracts it with x.  The kernel walks the rows of W 128 at a time, dequantizes
  each tile as `q · s − (z + 8) · s`, contracts it with all of x and adds the bias.  Proof/Spec.lean states the result as
  ONE function `G` of the inputs and proves that the two arrangements of a weight agree when the scale is a real number;
  Proof/Finite.lean reads "every scale is a real number" out of the precondition; Proof/RefIsG.lean reads the
  reference's result, operation by operation, as `G`; Proof/KernelPay.lean reads what the kernel's body leaves in one
  output tile as the tile function of its loaded tiles; Proof/Blocks.lean places the tiles in their arrays and covers the
  result with them.  Here the five claims are assembled: the three frames are the programs' runs with the result
  dropped, the idealization rewrote nothing, and both runs end at `G` of inputs that agree.
-/
import proofs.«411366_j27608049778857_3_alg».proof.Defs
import proofs.«411366_j27608049778857_3_alg».proof.Proof.Gen.Kernel
import proofs.«411366_j27608049778857_3_alg».proof.Proof.Gen.Kernel.Skeleton
import proofs.«411366_j27608049778857_3_alg».proof.Proof.Gen.Kernel.Launch
import proofs.«411366_j27608049778857_3_alg».proof.Proof.Gen.Kernel.Points
import proofs.«411366_j27608049778857_3_alg».proof.Proof.Gen.Kernel.Frame
import proofs.«411366_j27608049778857_3_alg».proof.Proof.Gen.KernelIdeal
import proofs.«411366_j27608049778857_3_alg».proof.Proof.Gen.KernelIdeal.Skeleton
import proofs.«411366_j27608049778857_3_alg».proof.Proof.Gen.KernelIdeal.Launch
import proofs.«411366_j27608049778857_3_alg».proof.Proof.Gen.KernelIdeal.Points
import proofs.«411366_j27608049778857_3_alg».proof.Proof.Gen.KernelIdeal.Frame
import proofs.«411366_j27608049778857_3_alg».proof.Proof.Gen.ReferenceIdeal
import proofs.«411366_j27608049778857_3_alg».proof.Proof.Gen.Pre_finite_inputs
import proofs.«411366_j27608049778857_3_alg».proof.Proof.Gen.KernelIdeal.Value
import proofs.«411366_j27608049778857_3_alg».proof.Proof.Gen.ReferenceIdeal.Run
import proofs.«411366_j27608049778857_3_alg».proof.Proof.Gen.ReferenceIdeal.Read
import proofs.«411366_j27608049778857_3_alg».proof.Proof.Spec
import proofs.«411366_j27608049778857_3_alg».proof.Proof.Finite
import proofs.«411366_j27608049778857_3_alg».proof.Proof.RefIsG
import proofs.«411366_j27608049778857_3_alg».proof.Proof.KernelPay
import proofs.«411366_j27608049778857_3_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Over the extended reals, from inputs that agree and whose scales are real numbers, the kernel's result array ends
    at the whole-array function of the inputs (its tiles, placed), and the reference's at the same function (its
    operations, read one by one). -/
theorem algebraic : Cert.algebraic_KernelIdeal_ReferenceIdeal := by
  intro m ρ m' ρ' hpre hagree
  refine ⟨fun c => Cert.KernelValue.result m c, ?_, ?_⟩
  · exact (θ_run Cert.KernelIdeal.defs _ _).mono
      (fun r h c => ⟨(h c).1.trans (Cert.KernelValue.final m Cert.KernelPay.E5_eq_Gblk c
          (fun j => Cert.Finite.scales_real _ _ _ _ _ (hpre c) j)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, Cert.RefIsG.ref_eq_G, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
